-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S16x4096x16 : Shape := ⟨3, ![16, 4096, 16]⟩
abbrev S10x64 : Shape := ⟨2, ![10, 64]⟩
abbrev S64 : Shape := ⟨1, ![64]⟩
abbrev S64x64 : Shape := ⟨2, ![64, 64]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel
  bcast_S_S16x4096x16 : S_.BroadcastsInDim S16x4096x16 (![] : Fin 0 → Fin S16x4096x16.rank)
  reducesTo_S16x4096x16_S_d0_1_2 : S16x4096x16.ReducesTo [0, 1, 2] S_
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x4096x3 .f32) (main_arg1 : FVec F S16x4096x16 .f32) (main_arg2 : FVec F S10x64 .f32) (main_arg3 : FVec F S64 .f32) (main_arg4 : FVec F S64x64 .f32) (main_arg5 : FVec F S64 .f32) (main_arg6 : IVec S16x4096x16 32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x16 .f32 := Host.absf main_arg1
  let main_cst_0 : FVec F S_ .f32 := constant S_ .f32 0x7F800000#32
  let main_v5 : FVec F S16x4096x16 .f32 := broadcastInDim S16x4096x16 ![] bcast_S_S16x4096x16 main_cst_0
  let main_v6 : IVec S16x4096x16 1 := cmpf .olt main_v4 main_v5
  let main_c_1 : IVec S_ 1 := constantI S_ 1 1#1
  let main_v7 : IVec S_ 1 := (fun x v => Host.reduce IntOp.andi x v reducesTo_S16x4096x16_S_d0_1_2 h_S_) main_v6 main_c_1
  let main_v8 : IVec S_ 1 := andi main_v3 main_v7
  let main_v9 : FVec F S10x64 .f32 := Host.absf main_arg2
  let main_cst_2 : FVec F S_ .f32 := constant S_ .f32 0x7F800000#32
  let main_v10 : FVec F S10x64 .f32 := broadcastInDim S10x64 ![] bcast_S_S10x64 main_cst_2
  let main_v11 : IVec S10x64 1 := cmpf .olt main_v9 main_v10
  let main_c_3 : IVec S_ 1 := constantI S_ 1 1#1
  let main_v12 : IVec S_ 1 := (fun x v => Host.reduce IntOp.andi x v reducesTo_S10x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x4096x3 : Shape := ⟨3, ![16, 4096, 3]⟩
abbrev S16x4096x16 : Shape := ⟨3, ![16, 4096, 16]⟩
abbrev S10x64 : Shape := ⟨2, ![10, 64]⟩
abbrev S64 : Shape := ⟨1, ![64]⟩
abbrev S64x64 : Shape := ⟨2, ![64, 64]⟩
abbrev S_ : Shape := ⟨0, ![]⟩
abbrev S16x4096x16x1 : Shape := ⟨4, ![16, 4096, 16, 1]⟩
abbrev S16x4096x16x3 : Shape := ⟨4, ![16, 4096, 16, 3]⟩
abbrev S16x4096x1x3 : Shape := ⟨4, ![16, 4096, 1, 3]⟩
abbrev S16x4096x16x10 : Shape := ⟨4, ![16, 4096, 16, 10]⟩
abbrev S16x65536x10 : Shape := ⟨3, ![16, 65536, 10]⟩
abbrev S16x65536x64 : Shape := ⟨3, ![16, 65536, 64]⟩
abbrev S1x8192x10 : Shape := ⟨3, ![1, 8192, 10]⟩
abbrev S1x8192x64 : Shape := ⟨3, ![1, 8192, 64]⟩
abbrev S8192x10 : Shape := ⟨2, ![8192, 10]⟩
abbrev S8192x64 : Shape := ⟨2, ![8192, 64]⟩
abbrev S1x64 : Shape := ⟨2, ![1, 64]⟩
abbrev S16x4096x16x64 : Shape := ⟨4, ![16, 4096, 16, 64]⟩

abbrev nBuf : Space → Nat
  | .hbm => 25
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x16, .f32⟩
  | .hbm, ⟨2, _⟩ => ⟨S10x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S16x4096x16, .i32⟩
  | .hbm, ⟨7, _⟩ => ⟨S_, .i32⟩
  | .hbm, ⟨8, _⟩ => ⟨S16x4096x16, .i32⟩
  | .hbm, ⟨9, _⟩ => ⟨S16x4096x16, .i1⟩
  | .hbm, ⟨10, _⟩ => ⟨S_, .i32⟩
  | .hbm, ⟨11, _⟩ => ⟨S16x4096x16, .i32⟩
  | .hbm, ⟨12, _⟩ => ⟨S16x4096x16, .i32⟩
  | .hbm, ⟨13, _⟩ => ⟨S16x4096x16, .i32⟩
  | .hbm, ⟨14, _⟩ => ⟨S16x4096x16x1, .i32⟩
  | .hbm, ⟨15, _⟩ => ⟨S16x4096x16x3, .f32⟩
  | .hbm, ⟨16, _⟩ => ⟨S16x4096x1x3, .f32⟩
  | .hbm, ⟨17, _⟩ => ⟨S16x4096x16x3, .f32⟩
  | .hbm, ⟨18, _⟩ => ⟨S16x4096x16x3, .f32⟩
  | .hbm, ⟨19, _⟩ => ⟨S16x4096x16x1, .f32⟩
  | .hbm, ⟨20, _⟩ => ⟨S16x4096x16x10, .f32⟩
  | .hbm, ⟨21, _⟩ => ⟨S16x65536x10, .f32⟩
  | .hbm, ⟨22, _⟩ => ⟨S16x65536x10, .bf16⟩
  | .hbm, ⟨23, _⟩ => ⟨S16x65536x64, .f32⟩
  | .hbm, ⟨24, _⟩ => ⟨S16x4096x16x64, .f32⟩
  | .local _ .vmem, ⟨0, _⟩ => ⟨S1x8192x10, .bf16⟩
  | .local _ .vmem, ⟨1, _⟩ => ⟨S1x8192x10, .bf16⟩
  | .local _ .vmem, ⟨2, _⟩ => ⟨S10x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S1x8192x64, .f32⟩
  | .local _ .vmem, ⟨7, _⟩ => ⟨S1x8192x64, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x10 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8192x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S16x4096x16 : S_.BroadcastsInDim S16x4096x16 (![] : Fin 0 → Fin S16x4096x16.rank)
  bcast_S16x4096x16_S16x4096x16x1_0_1_2 : S16x4096x16.BroadcastsInDim S16x4096x16x1 (![0, 1, 2] : Fin 3 → Fin S16x4096x16x1.rank)
  bcast_S16x4096x3_S16x4096x1x3_0_1_3 : S16x4096x3.BroadcastsInDim S16x4096x1x3 (![0, 1, 3] : Fin 3 → Fin S16x4096x1x3.rank)
  bcast_S16x4096x1x3_S16x4096x16x3_0_1_2_3 : S16x4096x1x3.BroadcastsInDim S16x4096x16x3 (![0, 1, 2, 3] : Fin 4 → Fin S16x4096x16x3.rank)
  concatenates_S16x4096x16x3_S16x4096x16x3_S16x4096x16x3_S16x4096x16x1_S16x4096x16x10_d3 : Shape.Concatenates [S16x4096x16x3, S16x4096x16x3, S16x4096x16x3, S16x4096x16x1] S16x4096x16x10 3
  shapeCasts_S16x4096x16x10_S16x65536x10 : S16x4096x16x10.ShapeCasts S16x65536x10
  bitsLt_bf16_f32 : FTy.bits .bf16 < FTy.bits .f32
  inb_S1x8192x10_S1x8192x10_0_0_0 : ∀ a, (![0, 0, 0] : Fin 3 → Nat) a + S1x8192x10.size a ≤ S1x8192x10.size a
  h_S1x8192x10 : 0 < S1x8192x10.numel
  shapeCasts_S1x8192x10_S8192x10 : S1x8192x10.ShapeCasts S8192x10
  inb_S10x64_S10x64_0_0 : ∀ a, (![0, 0] : Fin 2 → Nat) a + S10x64.size a ≤ S10x64.size a
  h_S10x64 : 0 < S10x64.numel
  inb_S64_S64_0 : ∀ a, (![0] : Fin 1 → Nat) a + S64.size a ≤ S64.size a
  h_S64 : 0 < S64.numel
  inb_S64x64_S64x64_0_0 : ∀ a, (![0, 0] : Fin 2 → Nat) a + S64x64.size a ≤ S64x64.size a
  h_S64x64 : 0 < S64x64.numel
  shapeCasts_S64_S1x64 : S64.ShapeCasts S1x64
  broadcasts_S1x64_S8192x64 : S1x64.Broadcasts S8192x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  shapeCasts_S8192x64_S1x8192x64 : S8192x64.ShapeCasts S1x8192x64
  shapeCasts_S16x65536x64_S16x4096x16x64 : S16x65536x64.ShapeCasts S16x4096x16x64
  gather_S16x4096x3_S16x4096x16x1_S16x4096x16x3_3_1_0_0_1_3_113_wf : GatherDims.WF S16x4096x3 S16x4096x16x1 S16x4096x16x3 [3] [1] [0] [1] [0] 3 ![1, 1, 3]
  dot_S8192x10_S10x64_S8192x64_1_0_0_1_n_n_wf : DotDims.WF S8192x10 S10x64 S8192x64 [1] [0] [0] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x10.size a ≤ S16x65536x10.size a
  hwx0_0 : ∀ i : grid0.Coords, EltTy.bits .bf16 = 32 ∨ (Rect.block (s := S16x65536x10) S1x8192x10.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x64.size a ≤ S10x64.size a
  hwx0_1 : ∀ i : grid0.Coords, EltTy.bits .f32 = 32 ∨ (Rect.block (s := S10x64) S10x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8192x64.size a ≤ S16x65536x64.size a
  hwx0_5 : ∀ i : grid0.Coords, EltTy.bits .f32 = 32 ∨ (Rect.block (s := S16x65536x64) S1x8192x64.size (cc0_transform_5 i) (hinb0_5 i)).WholeWords (EltTy.packing .f32)

variable [Facts₀]

def gather_S16x4096x3_S16x4096x16x1_S16x4096x16x3_3_1_0_0_1_3_113 : GatherDims S16x4096x3 S16x4096x16x1 S16x4096x16x3 where
  offsetDims := [3]
  collapsedSliceDims := [1]
  operandBatchingDims := [0]
  startIndicesBatchingDims := [0]
  startIndexMap := [1]
  indexVectorDim := 3
  sliceSizes := ![1, 1, 3]
  wf := gather_S16x4096x3_S16x4096x16x1_S16x4096x16x3_3_1_0_0_1_3_113_wf
def dot_S8192x10_S10x64_S8192x64_1_0_0_1_n_n : DotDims S8192x10 S10x64 S8192x64 where
  lhsContracting := [1]
  rhsContracting := [0]
  lhsNonContracting := [0]
  rhsNonContracting := [1]
  lhsBatch := []
  rhsBatch := []
  wf := dot_S8192x10_S10x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v13) S1x8192x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x8192x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S16x4096x16 : Shape := ⟨3, ![16, 4096, 16]⟩
abbrev S10x64 : Shape := ⟨2, ![10, 64]⟩
abbrev S64 : Shape := ⟨1, ![64]⟩
abbrev S64x64 : Shape := ⟨2, ![64, 64]⟩
abbrev S_ : Shape := ⟨0, ![]⟩
abbrev S16x4096x16x1 : Shape := ⟨4, ![16, 4096, 16, 1]⟩
abbrev S16x4096x16x3 : Shape := ⟨4, ![16, 4096, 16, 3]⟩
abbrev S16x4096x1x3 : Shape := ⟨4, ![16, 4096, 1, 3]⟩
abbrev S16x4096x16x10 : Shape := ⟨4, ![16, 4096, 16, 10]⟩
abbrev S16x4096x16x64 : Shape := ⟨4, ![16, 4096, 16, 64]⟩
abbrev S1x1x1x64 : Shape := ⟨4, ![1, 1, 1, 64]⟩

abbrev nBuf : Space → Nat
  | .hbm => 32
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x16, .f32⟩
  | .hbm, ⟨2, _⟩ => ⟨S10x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S16x4096x16, .i32⟩
  | .hbm, ⟨7, _⟩ => ⟨S_, .i32⟩
  | .hbm, ⟨8, _⟩ => ⟨S16x4096x16, .i32⟩
  | .hbm, ⟨9, _⟩ => ⟨S16x4096x16, .i1⟩
  | .hbm, ⟨10, _⟩ => ⟨S_, .i32⟩
  | .hbm, ⟨11, _⟩ => ⟨S16x4096x16, .i32⟩
  | .hbm, ⟨12, _⟩ => ⟨S16x4096x16, .i32⟩
  | .hbm, ⟨13, _⟩ => ⟨S16x4096x16, .i32⟩
  | .hbm, ⟨14, _⟩ => ⟨S16x4096x16x1, .i32⟩
  | .hbm, ⟨15, _⟩ => ⟨S16x4096x16x3, .f32⟩
  | .hbm, ⟨16, _⟩ => ⟨S16x4096x1x3, .f32⟩
  | .hbm, ⟨17, _⟩ => ⟨S16x4096x16x3, .f32⟩
  | .hbm, ⟨18, _⟩ => ⟨S16x4096x16x3, .f32⟩
  | .hbm, ⟨19, _⟩ => ⟨S16x4096x16x1, .f32⟩
  | .hbm, ⟨20, _⟩ => ⟨S16x4096x16x10, .f32⟩
  | .hbm, ⟨21, _⟩ => ⟨S16x4096x16x64, .f32⟩
  | .hbm, ⟨22, _⟩ => ⟨S1x1x1x64, .f32⟩
  | .hbm, ⟨23, _⟩ => ⟨S16x4096x16x64, .f32⟩
  | .hbm, ⟨24, _⟩ => ⟨S16x4096x16x64, .f32⟩
  | .hbm, ⟨25, _⟩ => ⟨S_, .f32⟩
  | .hbm, ⟨26, _⟩ => ⟨S16x4096x16x64, .f32⟩
  | .hbm, ⟨27, _⟩ => ⟨S16x4096x16x64, .f32⟩
  | .hbm, ⟨28, _⟩ => ⟨S16x4096x16x64, .f32⟩
  | .hbm, ⟨29, _⟩ => ⟨S1x1x1x64, .f32⟩
  | .hbm, ⟨30, _⟩ => ⟨S16x4096x16x64, .f32⟩
  | .hbm, ⟨31, _⟩ => ⟨S16x4096x16x64, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S16x4096x16 : S_.BroadcastsInDim S16x4096x16 (![] : Fin 0 → Fin S16x4096x16.rank)
  bcast_S16x4096x16_S16x4096x16x1_0_1_2 : S16x4096x16.BroadcastsInDim S16x4096x16x1 (![0, 1, 2] : Fin 3 → Fin S16x4096x16x1.rank)
  bcast_S16x4096x3_S16x4096x1x3_0_1_3 : S16x4096x3.BroadcastsInDim S16x4096x1x3 (![0, 1, 3] : Fin 3 → Fin S16x4096x1x3.rank)
  bcast_S16x4096x1x3_S16x4096x16x3_0_1_2_3 : S16x4096x1x3.BroadcastsInDim S16x4096x16x3 (![0, 1, 2, 3] : Fin 4 → Fin S16x4096x16x3.rank)
  concatenates_S16x4096x16x3_S16x4096x16x3_S16x4096x16x3_S16x4096x16x1_S16x4096x16x10_d3 : Shape.Concatenates [S16x4096x16x3, S16x4096x16x3, S16x4096x16x3, S16x4096x16x1] S16x4096x16x10 3
  bcast_S64_S1x1x1x64_3 : S64.BroadcastsInDim S1x1x1x64 (![3] : Fin 1 → Fin S1x1x1x64.rank)
  bcast_S1x1x1x64_S16x4096x16x64_0_1_2_3 : S1x1x1x64.BroadcastsInDim S16x4096x16x64 (![0, 1, 2, 3] : Fin 4 → Fin S16x4096x16x64.rank)
  bcast_S_S16x4096x16x64 : S_.BroadcastsInDim S16x4096x16x64 (![] : Fin 0 → Fin S16x4096x16x64.rank)
  gather_S16x4096x3_S16x4096x16x1_S16x4096x16x3_3_1_0_0_1_3_113_wf : GatherDims.WF S16x4096x3 S16x4096x16x1 S16x4096x16x3 [3] [1] [0] [1] [0] 3 ![1, 1, 3]
  dot_S16x4096x16x10_S10x64_S16x4096x16x64_3_0_012_1_n_n_wf : DotDims.WF S16x4096x16x10 S10x64 S16x4096x16x64 [3] [0] [0, 1, 2] [1] [] []
  dot_S16x4096x16x64_S64x64_S16x4096x16x64_3_0_012_1_n_n_wf : DotDims.WF S16x4096x16x64 S64x64 S16x4096x16x64 [3] [0] [0, 1, 2] [1] [] []

variable [Facts₀]

def gather_S16x4096x3_S16x4096x16x1_S16x4096x16x3_3_1_0_0_1_3_113 : GatherDims S16x4096x3 S16x4096x16x1 S16x4096x16x3 where
  offsetDims := [3]
  collapsedSliceDims := [1]
  operandBatchingDims := [0]
  startIndicesBatchingDims := [0]
  startIndexMap := [1]
  indexVectorDim := 3
  sliceSizes := ![1, 1, 3]
  wf := gather_S16x4096x3_S16x4096x16x1_S16x4096x16x3_3_1_0_0_1_3_113_wf
def dot_S16x4096x16x10_S10x64_S16x4096x16x64_3_0_012_1_n_n : DotDims S16x4096x16x10 S10x64 S16x4096x16x64 where
  lhsContracting := [3]
  rhsContracting := [0]
  lhsNonContracting := [0, 1, 2]
  rhsNonContracting := [1]
  lhsBatch := []
  rhsBatch := []
  wf := dot_S16x4096x16x10_S10x64_S16x4096x16x64_3_0_012_1_n_n_wf
def dot_S16x4096x16x64_S64x64_S16x4096x16x64_3_0_012_1_n_n : DotDims S16x4096x16x64 S64x64 S16x4096x16x64 where
  lhsContracting := [3]
  rhsContracting := [0]
  lhsNonContracting := [0, 1, 2]
  rhsNonContracting := [1]
  lhsBatch := []
  rhsBatch := []
  wf := dot_S16x4096x16x64_S64x64_S16x4096x16x64_3_0_012_1_n_n_wf

class Facts : Prop extends Facts₀ where

variable [Facts]
-- ==== Proof.KHost.lean ====
/-
  The frame of the program's one pallas_call, written against the library's launch theorem for a region that host
  lines precede and follow (Lib/Pipeline/FrameSuffix.lean).

  @main is: sixteen host operations (the neighbour gather, the broadcasts, the difference, the four-piece concatenate
  into the feature rows, the row-major fold of (N, K) into one row axis, the change of float format), the region, one
  host reshape of the result. The region's grid is 16 × 8; at point (b, r) the kernel reads rows
  r·8192 … r·8192 + 8191 of batch b of the folded features (window 0), the two weight matrices and two bias rows whole
  (windows 1–4, whose block index never moves), and writes the same rows of batch b of the output (window 5).

  The kernel body is five whole-buffer loads, a load of the output buffer whose value it never uses, and one store
  covering the output buffer with the pure function `k0_pay1` of the five loaded blocks. So the proof data is: every
  input buffer keeps its block; the output buffer ends at `k0_pay1` of the input blocks; the invariant is the class's
  (nothing scoped is touched); nothing is owed.

  Everything here is generic in the float family `F`: the same text proves the frame of the program as printed and of
  its idealization.
-/
import proofs.«401142_j76656576299160_3_alg».proof.Proof.Gen.Kernel.Launch
import proofs.«401142_j76656576299160_3_alg».proof.Proof.Gen.Kernel.Skeleton
import proofs.«401142_j76656576299160_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the sixteen host operations before it, folded over the
    launch memory. Kept folded everywhere below. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation of this program allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one reshape after it: it reduces to the region
    continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped TensorCore buffers: the result array and its own result. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array of the pipeline: it writes `main_v15`, which no window stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- An argument array is written by no host operation before the region: the region finds it as launched. -/
theorem V_arg (b : Ref sig .tc)
    (hb : ∀ op ∈ (List.flatten [hostOps0] : List (HloOp τ sig (Elt F))), Proc.devRef .tc b ∉ op.writes) (c : Dev nD) :
    V m c b = m ((c : Thread nD τ).loc b) :=
  StableHlo.after_of_forall_not_mem (b := Proc.devRef .tc b) _ _ hb

/-- The references the sixteen operations write are their sixteen results, none an argument. -/
theorem hostOps0_writes (b : Ref sig .tc)
    (hb : b ≠ main_c ∧ b ≠ main_v0 ∧ b ≠ main_v1 ∧ b ≠ main_c_0 ∧ b ≠ main_v2 ∧ b ≠ main_v3 ∧ b ≠ main_v4 ∧ b ≠ main_v5 ∧ b ≠ main_v6
      ∧ b ≠ main_v7 ∧ b ≠ main_v8 ∧ b ≠ main_v9 ∧ b ≠ main_v10 ∧ b ≠ main_v11 ∧ b ≠ main_v12 ∧ b ≠ main_v13) :
    ∀ op ∈ (List.flatten [hostOps0] : List (HloOp τ sig (Elt F))), Proc.devRef .tc b ∉ op.writes := by
  obtain ⟨h0, h1, h2, h3, h4, h5, h6, h7, h8, h9, h10, h11, h12, h13, h14, h15⟩ := hb
  refine List.forall_iff_forall_mem.mp ?_
  simp only [hostOps0, List.flatten_cons, List.flatten_nil, List.append_nil, List.cons_append,
    List.nil_append, List.Forall, StableHlo.nullary_writes, StableHlo.unary_writes, StableHlo.binary_writes,
    StableHlo.ternary_writes, StableHlo.reshape_writes, StableHlo.nary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13, StableHlo.devRef_ne_of_ne h14, StableHlo.devRef_ne_of_ne h15⟩

theorem V_main_arg0 (c : Dev nD) : V m c main_arg0 = m ((c : Thread nD τ).loc main_arg0) := V_arg m _ (hostOps0_writes _ (by decide)) c
theorem V_main_arg1 (c : Dev nD) : V m c main_arg1 = m ((c : Thread nD τ).loc main_arg1) := V_arg m _ (hostOps0_writes _ (by decide)) c
theorem V_main_arg2 (c : Dev nD) : V m c main_arg2 = m ((c : Thread nD τ).loc main_arg2) := V_arg m _ (hostOps0_writes _ (by decide)) c
theorem V_main_arg3 (c : Dev nD) : V m c main_arg3 = m ((c : Thread nD τ).loc main_arg3) := V_arg m _ (hostOps0_writes _ (by decide)) c
theorem V_main_arg4 (c : Dev nD) : V m c main_arg4 = m ((c : Thread nD τ).loc main_arg4) := V_arg m _ (hostOps0_writes _ (by decide)) c
theorem V_main_arg5 (c : Dev nD) : V m c main_arg5 = m ((c : Thread nD τ).loc main_arg5) := V_arg m _ (hostOps0_writes _ (by decide)) c
theorem V_main_arg6 (c : Dev nD) : V m c main_arg6 = m ((c : Thread nD τ).loc main_arg6) := V_arg m _ (hostOps0_writes _ (by decide)) c

/-- An unstaged argument array ends as the region found it: the reshape after the region writes only `main_v15`, and
    the write-backs touch only the pipeline's own arrays. -/
theorem tail_arg (dats : (p : Fin _) → (c : Dev nD) → Dat τ (Elt F) Unit ℕ (UR sig nD τ) ℕ (cfgs p) c) (c : Dev nD)
    (b : Ref sig .tc) (hb : b ≠ main_v15) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there or
    not: an unfetched window's block index has not moved since its last fetch, and the body leaves the block in place.
    For any proof data over the region-entry arrays (`hA`) whose body keeps the block (`hafter`). The features' window
    is fetched at every point; the weights' and biases' windows only at the first. None is clipped or ever idle. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Cert.Kernel.Frame

end
-- ==== Proof.KBody.lean ====
/-
  The kernel body's run, the pipeline's proof data, the frame run and the frame.

  The body loads the five input buffers whole, loads the output buffer (a value it never uses) and stores
  `k0_pay1` of the five loaded blocks over the whole output buffer. Run from input buffers at contents x0 … x4 and
  an output buffer at anything, it ends with the inputs as they were and the output buffer at that payload read
  through the one covering store.
-/
import proofs.«401142_j76656576299160_3_alg».proof.Proof.KHost

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output buffer -/

/-- Each buffer's whole block as a rectangle: what the five loads read and the one store writes. -/
abbrev featRect : Rect S1x8192x10 := Rect.unit (s := S1x8192x10) ![0, 0, 0] S1x8192x10.size inb_S1x8192x10_S1x8192x10_0_0_0
abbrev w1Rect : Rect S10x64 := Rect.unit (s := S10x64) ![0, 0] S10x64.size inb_S10x64_S10x64_0_0
abbrev biasRect : Rect S64 := Rect.unit (s := S64) ![0] S64.size inb_S64_S64_0
abbrev w2Rect : Rect S64x64 := Rect.unit (s := S64x64) ![0, 0] S64x64.size inb_S64x64_S64x64_0_0
abbrev outRect : Rect S1x8192x64 := Rect.unit (s := S1x8192x64) ![0, 0, 0] S1x8192x64.size inb_S1x8192x64_S1x8192x64_0_0_0

/-- The output buffer after the body: the payload of the five input blocks, read through the one store. -/
def outBlk (x0 : Vec F S1x8192x10 .bf16) (x1 : Vec F S10x64 .f32) (x2 : Vec F S64 .f32) (x3 : Vec F S64x64 .f32) (x4 : Vec F S64 .f32) :
    Vec F S1x8192x64 .f32 :=
  View.canon [⟨outRect, k0_pay1 (View.ld x0 featRect) (View.ld x1 w1Rect) (View.ld x2 biasRect) (View.ld x3 w2Rect) (View.ld x4 biasRect)⟩]

/-- That store covers the buffer: its rectangle is the whole block. -/
theorem outCover (p0 : Vec F S1x8192x64 .f32) (y : S1x8192x64.Idx) :
    ∃ pc ∈ ([⟨outRect, p0⟩] : List (View.Piece (Elt F) S1x8192x64 .f32)), y ∈ pc.1.set :=
  View.cover_of_tiled [⟨outRect, p0⟩] S1x8192x64.size (by rfl) y

/-! ## The body's triple -/

set_option maxHeartbeats 1000000 in
/-- The kernel body on whole staging memrefs: inputs at x0 … x4, the output at anything; it returns holding the inputs
    unchanged and the output at `outBlk` of the inputs. -/
theorem sound_kernel (c : Dev nD) (E : Set ℕ) (i : grid0.Coords)
    (arg2 : Memref sig .tc .vmem S1x8192x10 .bf16) (harg2 : arg2.IsWhole) (arg3 : Memref sig .tc .vmem S10x64 .f32) (harg3 : arg3.IsWhole)
    (arg4 : Memref sig .tc .vmem S64 .f32) (harg4 : arg4.IsWhole) (arg5 : Memref sig .tc .vmem S64x64 .f32) (harg5 : arg5.IsWhole)
    (arg6 : Memref sig .tc .vmem S64 .f32) (harg6 : arg6.IsWhole) (arg7 : Memref sig .tc .vmem S1x8192x64 .f32) (harg7 : arg7.IsWhole)
    (x0 : Vec F S1x8192x10 .bf16) (x1 : Vec F S10x64 .f32) (x2 : Vec F S64 .f32) (x3 : Vec F S64x64 .f32) (x4 : Vec F S64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E (cc0__mlp_kernel i arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The pipeline's proof data -/

/-- The proof data of the one pipeline on core `c`: the arrays as the region finds them; after the body at point `t`
    each input buffer at its block and the output buffer at `outBlk` of the five input blocks; the class's invariant
    (nothing scoped is touched); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) :
    (dats m 0 c).after 5 t = outBlk (iblk m c 0 t) (iblk m c 1 t) (iblk m c 2 t) (iblk m c 3 t) (iblk m c 4 t) := by dsimp only [dats]

/-- Each input's current staging buffer holds its block at every point. -/
theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d

/-! ## The body obligation, at a generic point -/

/-- What the body is called with at point `t`: the invariant, the core's debt, and each window's current staging
    buffer at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch memory with zero counters, every weakly fair execution of @main terminates; at the end every array of
    the pipeline holds what the proof data computes (an input its entry contents, the output every point's block written
    back), and every other unscoped buffer what the reshape after the region leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-! ## The frame -/

/-- The seven argument arrays end as launched: the three no window stages (positions, distances, neighbour indices) by the
    run's second clause and the host lines' write sets; the four staged inputs (weights and biases) because an input
    window's array is never written back. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(((h c).2 main_arg0 (Pipeline.mem_restRefs_of main_arg0 (by decide) (by decide))).trans
      (tail_arg m (dats m) c main_arg0 (by decide) (by decide))).trans (V_main_arg0 m c),
   (((h c).2 main_arg1 (Pipeline.mem_restRefs_of main_arg1 (by decide) (by decide))).trans
      (tail_arg m (dats m) c main_arg1 (by decide) (by decide))).trans (V_main_arg1 m c),
   ((h c).1 1).trans (((dats m 0 c).arrAt_in 1 rfl _).trans ((A_eq m c 1).trans (V_main_arg2 m c))),
   ((h c).1 2).trans (((dats m 0 c).arrAt_in 2 rfl _).trans ((A_eq m c 2).trans (V_main_arg3 m c))),
   ((h c).1 3).trans (((dats m 0 c).arrAt_in 3 rfl _).trans ((A_eq m c 3).trans (V_main_arg4 m c))),
   ((h c).1 4).trans (((dats m 0 c).arrAt_in 4 rfl _).trans ((A_eq m c 4).trans (V_main_arg5 m c))),
   (((h c).2 main_arg6 (Pipeline.mem_restRefs_of main_arg6 (by decide) (by decide))).trans
      (tail_arg m (dats m) c main_arg6 (by decide) (by decide))).trans (V_main_arg6 m c)⟩

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_main m ρ)

end Cert.Kernel.Frame

end
-- ==== Proof.KIHost.lean ====
/-
  The frame of the program's one pallas_call, written against the library's launch theorem for a region that host
  lines precede and follow (Lib/Pipeline/FrameSuffix.lean).

  @main is: sixteen host operations (the neighbour gather, the broadcasts, the difference, the four-piece concatenate
  into the feature rows, the row-major fold of (N, K) into one row axis, the change of float format), the region, one
  host reshape of the result. The region's grid is 16 × 8; at point (b, r) the kernel reads rows
  r·8192 … r·8192 + 8191 of batch b of the folded features (window 0), the two weight matrices and two bias rows whole
  (windows 1–4, whose block index never moves), and writes the same rows of batch b of the output (window 5).

  The kernel body is five whole-buffer loads, a load of the output buffer whose value it never uses, and one store
  covering the output buffer with the pure function `k0_pay1` of the five loaded blocks. So the proof data is: every
  input buffer keeps its block; the output buffer ends at `k0_pay1` of the input blocks; the invariant is the class's
  (nothing scoped is touched); nothing is owed.

  Everything here is generic in the float family `F`: the same text proves the frame of the program as printed and of
  its idealization.
-/
import proofs.«401142_j76656576299160_3_alg».proof.Proof.Gen.KernelIdeal.Launch
import proofs.«401142_j76656576299160_3_alg».proof.Proof.Gen.KernelIdeal.Skeleton
import proofs.«401142_j76656576299160_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the sixteen host operations before it, folded over the
    launch memory. Kept folded everywhere below. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation of this program allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one reshape after it: it reduces to the region
    continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped TensorCore buffers: the result array and its own result. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array of the pipeline: it writes `main_v15`, which no window stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- An argument array is written by no host operation before the region: the region finds it as launched. -/
theorem V_arg (b : Ref sig .tc)
    (hb : ∀ op ∈ (List.flatten [hostOps0] : List (HloOp τ sig (Elt F))), Proc.devRef .tc b ∉ op.writes) (c : Dev nD) :
    V m c b = m ((c : Thread nD τ).loc b) :=
  StableHlo.after_of_forall_not_mem (b := Proc.devRef .tc b) _ _ hb

/-- The references the sixteen operations write are their sixteen results, none an argument. -/
theorem hostOps0_writes (b : Ref sig .tc)
    (hb : b ≠ main_c ∧ b ≠ main_v0 ∧ b ≠ main_v1 ∧ b ≠ main_c_0 ∧ b ≠ main_v2 ∧ b ≠ main_v3 ∧ b ≠ main_v4 ∧ b ≠ main_v5 ∧ b ≠ main_v6
      ∧ b ≠ main_v7 ∧ b ≠ main_v8 ∧ b ≠ main_v9 ∧ b ≠ main_v10 ∧ b ≠ main_v11 ∧ b ≠ main_v12 ∧ b ≠ main_v13) :
    ∀ op ∈ (List.flatten [hostOps0] : List (HloOp τ sig (Elt F))), Proc.devRef .tc b ∉ op.writes := by
  obtain ⟨h0, h1, h2, h3, h4, h5, h6, h7, h8, h9, h10, h11, h12, h13, h14, h15⟩ := hb
  refine List.forall_iff_forall_mem.mp ?_
  simp only [hostOps0, List.flatten_cons, List.flatten_nil, List.append_nil, List.cons_append,
    List.nil_append, List.Forall, StableHlo.nullary_writes, StableHlo.unary_writes, StableHlo.binary_writes,
    StableHlo.ternary_writes, StableHlo.reshape_writes, StableHlo.nary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13, StableHlo.devRef_ne_of_ne h14, StableHlo.devRef_ne_of_ne h15⟩

theorem V_main_arg0 (c : Dev nD) : V m c main_arg0 = m ((c : Thread nD τ).loc main_arg0) := V_arg m _ (hostOps0_writes _ (by decide)) c
theorem V_main_arg1 (c : Dev nD) : V m c main_arg1 = m ((c : Thread nD τ).loc main_arg1) := V_arg m _ (hostOps0_writes _ (by decide)) c
theorem V_main_arg2 (c : Dev nD) : V m c main_arg2 = m ((c : Thread nD τ).loc main_arg2) := V_arg m _ (hostOps0_writes _ (by decide)) c
theorem V_main_arg3 (c : Dev nD) : V m c main_arg3 = m ((c : Thread nD τ).loc main_arg3) := V_arg m _ (hostOps0_writes _ (by decide)) c
theorem V_main_arg4 (c : Dev nD) : V m c main_arg4 = m ((c : Thread nD τ).loc main_arg4) := V_arg m _ (hostOps0_writes _ (by decide)) c
theorem V_main_arg5 (c : Dev nD) : V m c main_arg5 = m ((c : Thread nD τ).loc main_arg5) := V_arg m _ (hostOps0_writes _ (by decide)) c
theorem V_main_arg6 (c : Dev nD) : V m c main_arg6 = m ((c : Thread nD τ).loc main_arg6) := V_arg m _ (hostOps0_writes _ (by decide)) c

/-- An unstaged argument array ends as the region found it: the reshape after the region writes only `main_v15`, and
    the write-backs touch only the pipeline's own arrays. -/
theorem tail_arg (dats : (p : Fin _) → (c : Dev nD) → Dat τ (Elt F) Unit ℕ (UR sig nD τ) ℕ (cfgs p) c) (c : Dev nD)
    (b : Ref sig .tc) (hb : b ≠ main_v15) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there or
    not: an unfetched window's block index has not moved since its last fetch, and the body leaves the block in place.
    For any proof data over the region-entry arrays (`hA`) whose body keeps the block (`hafter`). The features' window
    is fetched at every point; the weights' and biases' windows only at the first. None is clipped or ever idle. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Frame

end
-- ==== Proof.KIBody.lean ====
/-
  The kernel body's run, the pipeline's proof data, the frame run and the frame.

  The body loads the five input buffers whole, loads the output buffer (a value it never uses) and stores
  `k0_pay1` of the five loaded blocks over the whole output buffer. Run from input buffers at contents x0 … x4 and
  an output buffer at anything, it ends with the inputs as they were and the output buffer at that payload read
  through the one covering store.
-/
import proofs.«401142_j76656576299160_3_alg».proof.Proof.KIHost

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output buffer -/

/-- Each buffer's whole block as a rectangle: what the five loads read and the one store writes. -/
abbrev featRect : Rect S1x8192x10 := Rect.unit (s := S1x8192x10) ![0, 0, 0] S1x8192x10.size inb_S1x8192x10_S1x8192x10_0_0_0
abbrev w1Rect : Rect S10x64 := Rect.unit (s := S10x64) ![0, 0] S10x64.size inb_S10x64_S10x64_0_0
abbrev biasRect : Rect S64 := Rect.unit (s := S64) ![0] S64.size inb_S64_S64_0
abbrev w2Rect : Rect S64x64 := Rect.unit (s := S64x64) ![0, 0] S64x64.size inb_S64x64_S64x64_0_0
abbrev outRect : Rect S1x8192x64 := Rect.unit (s := S1x8192x64) ![0, 0, 0] S1x8192x64.size inb_S1x8192x64_S1x8192x64_0_0_0

/-- The output buffer after the body: the payload of the five input blocks, read through the one store. -/
def outBlk (x0 : Vec F S1x8192x10 .bf16) (x1 : Vec F S10x64 .f32) (x2 : Vec F S64 .f32) (x3 : Vec F S64x64 .f32) (x4 : Vec F S64 .f32) :
    Vec F S1x8192x64 .f32 :=
  View.canon [⟨outRect, k0_pay1 (View.ld x0 featRect) (View.ld x1 w1Rect) (View.ld x2 biasRect) (View.ld x3 w2Rect) (View.ld x4 biasRect)⟩]

/-- That store covers the buffer: its rectangle is the whole block. -/
theorem outCover (p0 : Vec F S1x8192x64 .f32) (y : S1x8192x64.Idx) :
    ∃ pc ∈ ([⟨outRect, p0⟩] : List (View.Piece (Elt F) S1x8192x64 .f32)), y ∈ pc.1.set :=
  View.cover_of_tiled [⟨outRect, p0⟩] S1x8192x64.size (by rfl) y

/-! ## The body's triple -/

set_option maxHeartbeats 1000000 in
/-- The kernel body on whole staging memrefs: inputs at x0 … x4, the output at anything; it returns holding the inputs
    unchanged and the output at `outBlk` of the inputs. -/
theorem sound_kernel (c : Dev nD) (E : Set ℕ) (i : grid0.Coords)
    (arg2 : Memref sig .tc .vmem S1x8192x10 .bf16) (harg2 : arg2.IsWhole) (arg3 : Memref sig .tc .vmem S10x64 .f32) (harg3 : arg3.IsWhole)
    (arg4 : Memref sig .tc .vmem S64 .f32) (harg4 : arg4.IsWhole) (arg5 : Memref sig .tc .vmem S64x64 .f32) (harg5 : arg5.IsWhole)
    (arg6 : Memref sig .tc .vmem S64 .f32) (harg6 : arg6.IsWhole) (arg7 : Memref sig .tc .vmem S1x8192x64 .f32) (harg7 : arg7.IsWhole)
    (x0 : Vec F S1x8192x10 .bf16) (x1 : Vec F S10x64 .f32) (x2 : Vec F S64 .f32) (x3 : Vec F S64x64 .f32) (x4 : Vec F S64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E (cc0__mlp_kernel i arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The pipeline's proof data -/

/-- The proof data of the one pipeline on core `c`: the arrays as the region finds them; after the body at point `t`
    each input buffer at its block and the output buffer at `outBlk` of the five input blocks; the class's invariant
    (nothing scoped is touched); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) :
    (dats m 0 c).after 5 t = outBlk (iblk m c 0 t) (iblk m c 1 t) (iblk m c 2 t) (iblk m c 3 t) (iblk m c 4 t) := by dsimp only [dats]

/-- Each input's current staging buffer holds its block at every point. -/
theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d

/-! ## The body obligation, at a generic point -/

/-- What the body is called with at point `t`: the invariant, the core's debt, and each window's current staging
    buffer at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch memory with zero counters, every weakly fair execution of @main terminates; at the end every array of
    the pipeline holds what the proof data computes (an input its entry contents, the output every point's block written
    back), and every other unscoped buffer what the reshape after the region leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-! ## The frame -/

/-- The seven argument arrays end as launched: the three no window stages (positions, distances, neighbour indices) by the
    run's second clause and the host lines' write sets; the four staged inputs (weights and biases) because an input
    window's array is never written back. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(((h c).2 main_arg0 (Pipeline.mem_restRefs_of main_arg0 (by decide) (by decide))).trans
      (tail_arg m (dats m) c main_arg0 (by decide) (by decide))).trans (V_main_arg0 m c),
   (((h c).2 main_arg1 (Pipeline.mem_restRefs_of main_arg1 (by decide) (by decide))).trans
      (tail_arg m (dats m) c main_arg1 (by decide) (by decide))).trans (V_main_arg1 m c),
   ((h c).1 1).trans (((dats m 0 c).arrAt_in 1 rfl _).trans ((A_eq m c 1).trans (V_main_arg2 m c))),
   ((h c).1 2).trans (((dats m 0 c).arrAt_in 2 rfl _).trans ((A_eq m c 2).trans (V_main_arg3 m c))),
   ((h c).1 3).trans (((dats m 0 c).arrAt_in 3 rfl _).trans ((A_eq m c 3).trans (V_main_arg4 m c))),
   ((h c).1 4).trans (((dats m 0 c).arrAt_in 4 rfl _).trans ((A_eq m c 4).trans (V_main_arg5 m c))),
   (((h c).2 main_arg6 (Pipeline.mem_restRefs_of main_arg6 (by decide) (by decide))).trans
      (tail_arg m (dats m) c main_arg6 (by decide) (by decide))).trans (V_main_arg6 m c)⟩

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_main m ρ)

end Cert.KernelIdeal.Frame

end
-- ==== Proof.MlpSpec.lean ====
/-
  The two-layer perceptron the kernel and the reference both compute, as one element of the result.

  For a feature row x (ten numbers), weights W1 (10 × 64) and W2 (64 × 64) and bias rows b1, b2 (64 each), output
  column d:

      out d = (∑ h, max ((∑ c, x c · W1 c h) + b1 h) 0 · W2 h d) + b2 d

  over the extended reals. The zero the maximum is taken against is written as the value of the float pattern of 0.0
  (both programs spell it so; it is never evaluated). No law beyond reading each program's operations at an index is
  needed to identify either side with this function, so the finiteness of the inputs plays no part.
-/
import Idealize.ShloMosaic.PureOps.Ideal
import Idealize.ShloMosaic.Lib.ValueIdx

noncomputable section

namespace Cert.Mlp

open Idealize.ShloMosaic Idealize.ShloMosaic.ValueIdx

/-- The hidden unit `h` of the perceptron on the feature row `x`: the first product, the bias, the rectifier. -/
def hidden (x : Fin 10 → EReal) (W1 : (⟨2, ![10, 64]⟩ : Shape).Idx → EReal) (b1 : (⟨1, ![64]⟩ : Shape).Idx → EReal) (h : Fin 64) : EReal :=
  max ((∑ c : Fin 10, x c * W1 (ix2 c h)) + b1 (ix1 h)) (Ideal.ofBits .f32 0x00000000#32)

/-- Output column `d` of the perceptron on the feature row `x`. -/
def mlpElt (x : Fin 10 → EReal) (W1 : (⟨2, ![10, 64]⟩ : Shape).Idx → EReal) (b1 : (⟨1, ![64]⟩ : Shape).Idx → EReal)
    (W2 : (⟨2, ![64, 64]⟩ : Shape).Idx → EReal) (b2 : (⟨1, ![64]⟩ : Shape).Idx → EReal) (d : Fin 64) : EReal :=
  (∑ h : Fin 64, hidden x W1 b1 h * W2 (ix2 h d)) + b2 (ix1 d)

end Cert.Mlp

end
-- ==== Proof.KIPayload.lean ====
/-
  The kernel body's stored value, read at one element, is the perceptron of `MlpSpec`.

  The body's payload is: the feature block with its unit batch axis dropped, times the first weight matrix (a matrix
  product into a zero accumulator), plus the first bias row broadcast down the rows, rectified against zero, times
  the second weight matrix, plus the second bias row, with the unit batch axis put back. The changes of float format on
  the way into each product are the identity on the extended reals.
-/
import proofs.«401142_j76656576299160_3_alg».proof.Proof.Gen.KernelIdeal.Skeleton
import proofs.«401142_j76656576299160_3_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- Where the first product's operands are read: output element (p, q) at contraction position k reads the left operand
    at (p, k) and the right at (k, q). One coordinate at a time. -/
theorem lhsA_0 (i : S8192x64.Idx) (q : dot_S8192x10_S10x64_S8192x64_1_0_0_1_n_n.contr.Idx) : (dot_S8192x10_S10x64_S8192x64_1_0_0_1_n_n.lhsIdx i q 0).val = (i 0).val := by
  unfold DotDims.lhsIdx
  rw [dif_neg (show ¬(0 : Fin S8192x10.rank) ∈ dot_S8192x10_S10x64_S8192x64_1_0_0_1_n_n.lhsBatch by decide), dif_pos (show (0 : Fin S8192x10.rank) ∈ dot_S8192x10_S10x64_S8192x64_1_0_0_1_n_n.lhsNonContracting by decide)]
  rfl
theorem lhsA_1 (i : S8192x64.Idx) (q : dot_S8192x10_S10x64_S8192x64_1_0_0_1_n_n.contr.Idx) : (dot_S8192x10_S10x64_S8192x64_1_0_0_1_n_n.lhsIdx i q 1).val = (q ⟨0, by decide⟩).val :=
  dot_S8192x10_S10x64_S8192x64_1_0_0_1_n_n.lhsIdx_val_of_single rfl i q
theorem rhsA_0 (i : S8192x64.Idx) (q : dot_S8192x10_S10x64_S8192x64_1_0_0_1_n_n.contr.Idx) : (dot_S8192x10_S10x64_S8192x64_1_0_0_1_n_n.rhsIdx i q 0).val = (q ⟨0, by decide⟩).val :=
  dot_S8192x10_S10x64_S8192x64_1_0_0_1_n_n.rhsIdx_val_of_single rfl i q
theorem rhsA_1 (i : S8192x64.Idx) (q : dot_S8192x10_S10x64_S8192x64_1_0_0_1_n_n.contr.Idx) : (dot_S8192x10_S10x64_S8192x64_1_0_0_1_n_n.rhsIdx i q 1).val = (i 1).val := by
  unfold DotDims.rhsIdx
  rw [dif_neg (show ¬(1 : Fin S10x64.rank) ∈ dot_S8192x10_S10x64_S8192x64_1_0_0_1_n_n.rhsBatch by decide), dif_pos (show (1 : Fin S10x64.rank) ∈ dot_S8192x10_S10x64_S8192x64_1_0_0_1_n_n.rhsNonContracting by decide)]
  rfl

/-- The First matrix product into a zero accumulator, read at (p, q): the plain sum over the contracted axis. -/
theorem matmulA_apply (l : FVec Ideal S8192x10 .bf16) (r : FVec Ideal S10x64 .bf16) (p : Fin 8192) (q : Fin 64) :
    matmul dot_S8192x10_S10x64_S8192x64_1_0_0_1_n_n none l r (constant (F := Ideal) S8192x64 .f32 0x00000000#32) (ix2 p q) = ∑ k : Fin 10, l (ix2 p k) * r (ix2 k q) := by
  simp only [matmul]
  rw [Ideal.matmul_constant_zero_apply, ← Equiv.sum_comp (contrEquiv1 dot_S8192x10_S10x64_S8192x64_1_0_0_1_n_n 10 rfl rfl).symm]
  refine Finset.sum_congr rfl fun k _ => ?_
  have hk := contrEquiv1_symm_val dot_S8192x10_S10x64_S8192x64_1_0_0_1_n_n 10 rfl rfl k
  have el : dot_S8192x10_S10x64_S8192x64_1_0_0_1_n_n.lhsIdx (ix2 p q) ((contrEquiv1 dot_S8192x10_S10x64_S8192x64_1_0_0_1_n_n 10 rfl rfl).symm k) = ix2 p k := funext fun a => Fin.ext (by
    match a with
    | ⟨0, _⟩ => exact lhsA_0 _ _
    | ⟨1, _⟩ => exact (lhsA_1 _ _).trans hk)
  have er : dot_S8192x10_S10x64_S8192x64_1_0_0_1_n_n.rhsIdx (ix2 p q) ((contrEquiv1 dot_S8192x10_S10x64_S8192x64_1_0_0_1_n_n 10 rfl rfl).symm k) = ix2 k q := funext fun a => Fin.ext (by
    match a with
    | ⟨0, _⟩ => exact (rhsA_0 _ _).trans hk
    | ⟨1, _⟩ => exact rhsA_1 _ _)
  rw [el, er]

/-- Where the second product's operands are read: output element (p, q) at contraction position k reads the left operand
    at (p, k) and the right at (k, q). One coordinate at a time. -/
theorem lhsB_0 (i : S8192x64.Idx) (q : dot_S8192x64_S64x64_S8192x64_1_0_0_1_n_n.contr.Idx) : (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhsB_1 (i : S8192x64.Idx) (q : dot_S8192x64_S64x64_S8192x64_1_0_0_1_n_n.contr.Idx) : (dot_S8192x64_S64x64_S8192x64_1_0_0_1_n_n.lhsIdx i q 1).val = (q ⟨0, by decide⟩).val :=
  dot_S8192x64_S64x64_S8192x64_1_0_0_1_n_n.lhsIdx_val_of_single rfl i q
theorem rhsB_0 (i : S8192x64.Idx) (q : dot_S8192x64_S64x64_S8192x64_1_0_0_1_n_n.contr.Idx) : (dot_S8192x64_S64x64_S8192x64_1_0_0_1_n_n.rhsIdx i q 0).val = (q ⟨0, by decide⟩).val :=
  dot_S8192x64_S64x64_S8192x64_1_0_0_1_n_n.rhsIdx_val_of_single rfl i q
theorem rhsB_1 (i : S8192x64.Idx) (q : dot_S8192x64_S64x64_S8192x64_1_0_0_1_n_n.contr.Idx) : (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The Second matrix product into a zero accumulator, read at (p, q): the plain sum over the contracted axis. -/
theorem matmulB_apply (l : FVec Ideal S8192x64 .bf16) (r : FVec Ideal S64x64 .bf16) (p : Fin 8192) (q : Fin 64) :
    matmul dot_S8192x64_S64x64_S8192x64_1_0_0_1_n_n none l r (constant (F := Ideal) S8192x64 .f32 0x00000000#32) (ix2 p q) = ∑ k : Fin 64, l (ix2 p k) * r (ix2 k q) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S8192x64_S64x64_S8192x64_1_0_0_1_n_n.rhsIdx (ix2 p q) ((contrEquiv1 dot_S8192x64_S64x64_S8192x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-- The payload at row `p`, column `q` of the block (whatever the unit batch coordinate `u`) is the perceptron's output
    column `q` on row `p` of the feature block. -/
theorem pay_apply (x0 : FVec Ideal S1x8192x10 .bf16) (x1 : FVec Ideal S10x64 .f32) (x2 : FVec Ideal S64 .f32)
    (x3 : FVec Ideal S64x64 .f32) (x4 : FVec Ideal S64 .f32) (u : Fin 1) (p : Fin 8192) (q : Fin 64) :
    k0_pay1 (F := Ideal) x0 x1 x2 x3 x4 (ix3 u p q) = Cert.Mlp.mlpElt (fun c => x0 (ix3 (0 : Fin 1) p c)) x1 x2 x3 x4 q := by
  unfold k0_pay1 Cert.Mlp.mlpElt Cert.Mlp.hidden
  dsimp only
  rw [shapeCast_ab_1ab_apply, addf_apply, matmulB_apply, broadcastTo_1b_ab_apply, shapeCast_a_1a_apply]
  refine congrArg (· + x4 (ix1 q)) (Finset.sum_congr rfl fun h _ => ?_)
  rw [truncf_apply, truncf_apply, maximumf_apply, addf_apply, matmulA_apply, broadcastTo_1b_ab_apply, shapeCast_a_1a_apply,
    broadcast_apply]
  refine congrArg (fun s => max (s + x2 (ix1 h)) (Ideal.ofBits .f32 0x00000000#32) * x3 (ix2 h q)) (Finset.sum_congr rfl fun c _ => ?_)
  rw [truncf_apply, shapeCast_1ab_ab_apply]

end Cert.KernelIdeal.Payload

end
-- ==== Proof.KIValue.lean ====
/-
  What the kernel's program computes, read off its frame run.

  Every point (b, r) of the 16 × 8 grid writes back rows r·8192 … r·8192 + 8191 of batch b of the region's result array;
  these blocks tile the array, so it ends as ONE function of the arrays the region found: element (b, row, d) is the
  perceptron's output column d on feature row (b, row). The features the region finds are the host prefix's result: the
  concatenated neighbour features with (N, K) folded row-major into one row axis (the change of float format on the way
  is the identity on the extended reals). The reshape after the region unfolds the row axis again.
-/
import proofs.«401142_j76656576299160_3_alg».proof.Proof.KIBody
import proofs.«401142_j76656576299160_3_alg».proof.Proof.KIPayload
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Frame Cert.KernelIdeal.Payload
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The region's result array as one function of the arrays it finds: element (b, row, d) is the perceptron's output
    column `d` on feature row (b, row). -/
def rows (X : (⟨3, ![16, 65536, 10]⟩ : Shape).Idx → EReal) (W1 : (⟨2, ![10, 64]⟩ : Shape).Idx → EReal) (b1 : (⟨1, ![64]⟩ : Shape).Idx → EReal)
    (W2 : (⟨2, ![64, 64]⟩ : Shape).Idx → EReal) (b2 : (⟨1, ![64]⟩ : Shape).Idx → EReal) :
    (⟨3, ![16, 65536, 64]⟩ : Shape).Idx → EReal :=
  fun j => Cert.Mlp.mlpElt (fun c => X (ix3 (j 0) (j 1) c)) W1 b1 W2 b2 (j 2)

/-- The printed index maps, decided over the grid: the feature window moves with the output window on the batch and
    row-block axes, both stay at block 0 on the last axis, the weights' and biases' windows never move, and the output's
    block indices stay in range. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 3) ≤ 15 ∧ win0_5.index t (1 : Fin 3) ≤ 7 :=
  (by decide +kernel : ∀ t : Fin grid0.N, _)

/-- Every (batch, row block) is some point's. -/
theorem idx_onto : ∀ (q0 : Fin 16) (q1 : Fin 8), ∃ t : Fin cfg0.N, win0_5.index t = ![q0.val, q1.val, 0] :=
  (by decide +kernel : ∀ (q0 : Fin 16) (q1 : Fin 8), ∃ t : Fin grid0.N, win0_5.index t = ![q0.val, q1.val, 0])

/-- The weights' and biases' blocks are their whole arrays, at every point. -/
theorem blk_W1 (c : Dev nD) (t : Fin cfg0.N) : (iblk m c 1 t : FVec Ideal S10x64 .f32) = V m c main_arg2 := by
  obtain ⟨-, -, -, -, e0, e1, -⟩ := idx_facts t
  funext y
  show V m c main_arg2 (((cfg0.win 1).blk t).view.emb y) = V m c main_arg2 y
  refine congrArg _ (funext fun a => Fin.ext ?_)
  match a with
  | ⟨0, _⟩ => show win0_1.index t (0 : Fin 2) * 10 + 1 * (y 0).val = (y 0).val; omega
  | ⟨1, _⟩ => show win0_1.index t (1 : Fin 2) * 64 + 1 * (y 1).val = (y 1).val; omega

theorem blk_b1 (c : Dev nD) (t : Fin cfg0.N) : (iblk m c 2 t : FVec Ideal S64 .f32) = V m c main_arg3 := by
  obtain ⟨-, -, -, -, -, -, e0, -⟩ := idx_facts t
  funext y
  show V m c main_arg3 (((cfg0.win 2).blk t).view.emb y) = V m c main_arg3 y
  refine congrArg _ (funext fun a => Fin.ext ?_)
  match a with
  | ⟨0, _⟩ => show win0_2.index t (0 : Fin 1) * 64 + 1 * (y 0).val = (y 0).val; omega

theorem blk_W2 (c : Dev nD) (t : Fin cfg0.N) : (iblk m c 3 t : FVec Ideal S64x64 .f32) = V m c main_arg4 := by
  obtain ⟨-, -, -, -, -, -, -, e0, e1, -⟩ := idx_facts t
  funext y
  show V m c main_arg4 (((cfg0.win 3).blk t).view.emb y) = V m c main_arg4 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem blk_b2 (c : Dev nD) (t : Fin cfg0.N) : (iblk m c 4 t : FVec Ideal S64 .f32) = V m c main_arg5 := by
  obtain ⟨-, -, -, -, -, -, -, -, -, e0, -⟩ := idx_facts t
  funext y
  show V m c main_arg5 (((cfg0.win 4).blk t).view.emb y) = V m c main_arg5 y
  refine congrArg _ (funext fun a => Fin.ext ?_)
  match a with
  | ⟨0, _⟩ => show win0_4.index t (0 : Fin 1) * 64 + 1 * (y 0).val = (y 0).val; omega

/-- Row `p`, column `k` of the feature window's block at point `t`, read off any feature array `X`, is `X` at batch `b`,
    row `r`, column `k`, where `b` is the point's batch and `r` the row at which the block's row `p` lies. -/
theorem read_feat (X : (⟨S16x65536x10, .bf16⟩ : BufTy).Contents (Elt Ideal)) (t : Fin cfg0.N) (p : Fin 8192) (k : Fin 10) (b : Fin 16) (r : Fin 65536)
    (hb : b.val = win0_5.index t (0 : Fin 3)) (hr : r.val = win0_5.index t (1 : Fin 3) * 8192 + p.val) :
    ((cfg0.win 0).blk t).view.read (Elt Ideal) X (ix3 (0 : Fin 1) p k : S1x8192x10.Idx) = X (ix3 b r k) := by
  obtain ⟨e0, e1, e2, -⟩ := idx_facts t
  show X (((cfg0.win 0).blk t).view.emb (ix3 (0 : Fin 1) p k : S1x8192x10.Idx)) = X (ix3 b r k)
  refine congrArg X (funext fun a => Fin.ext ?_)
  match a with
  | ⟨0, _⟩ => show win0_0.index t (0 : Fin 3) * 1 + 1 * 0 = b.val; omega
  | ⟨1, _⟩ => show win0_0.index t (1 : Fin 3) * 8192 + 1 * p.val = r.val; omega
  | ⟨2, _⟩ => show win0_0.index t (2 : Fin 3) * 10 + 1 * k.val = k.val; omega

/-- Where element (u, p, q) of the output block at point `t` lies in the result array: at the point's batch, at the row the
    block's row `p` lies at, at column `q`. -/
theorem emb_out (t : Fin cfg0.N) (u : Fin 1) (p : Fin 8192) (q : Fin 64) :
    ∃ (b : Fin 16) (r : Fin 65536), b.val = win0_5.index t (0 : Fin 3) ∧ r.val = win0_5.index t (1 : Fin 3) * 8192 + p.val
      ∧ ((cfg0.win 5).blk t).view.emb (ix3 u p q : S1x8192x64.Idx) = (ix3 b r q : S16x65536x64.Idx) := by
  obtain ⟨-, -, -, e3, -, -, -, -, -, -, h0, h1⟩ := idx_facts t
  have hu : u.val = 0 := by omega
  have hp : p.val < 8192 := p.isLt
  refine ⟨⟨win0_5.index t (0 : Fin 3), by omega⟩, ⟨win0_5.index t (1 : Fin 3) * 8192 + p.val, by omega⟩, rfl, rfl,
    funext fun a => Fin.ext ?_⟩
  match a with
  | ⟨0, _⟩ => show win0_5.index t (0 : Fin 3) * 1 + 1 * u.val = win0_5.index t (0 : Fin 3); omega
  | ⟨1, _⟩ => show win0_5.index t (1 : Fin 3) * 8192 + 1 * p.val = win0_5.index t (1 : Fin 3) * 8192 + p.val; omega
  | ⟨2, _⟩ => show win0_5.index t (2 : Fin 3) * 64 + 1 * q.val = q.val; omega

/-- Element (u, p, q) of block `t` of `rows` is the perceptron on row `p` of the feature window's block at `t`: for any
    arrays. -/
theorem block_eq (X : (⟨S16x65536x10, .bf16⟩ : BufTy).Contents (Elt Ideal)) (W1 : FVec Ideal S10x64 .f32) (b1 : FVec Ideal S64 .f32)
    (W2 : FVec Ideal S64x64 .f32) (b2 : FVec Ideal S64 .f32) (t : Fin cfg0.N) (u : Fin 1) (p : Fin 8192) (q : Fin 64) :
    Cert.Mlp.mlpElt (fun k => ((cfg0.win 0).blk t).view.read (Elt Ideal) X (ix3 (0 : Fin 1) p k : S1x8192x10.Idx)) W1 b1 W2 b2 q
      = ((cfg0.win 5).blk t).view.read (Elt Ideal) (rows X W1 b1 W2 b2) (ix3 u p q : S1x8192x64.Idx) := by
  obtain ⟨b, r, hb, hr, hE⟩ := emb_out t u p q
  rw [View.read_apply, hE]
  exact congrArg (fun x => Cert.Mlp.mlpElt x W1 b1 W2 b2 q) (funext fun k => read_feat X t p k b r hb hr)

/-- What point `t` writes back is block `t` of `rows` of the arrays the region finds. -/
theorem flushed_eq (c : Dev nD) (t : Fin cfg0.N) :
    (dats m 0 c).flushed 5 t = ((cfg0.win 5).blk t).view.read (Elt Ideal)
      (rows (V m c main_v13) (V m c main_arg2) (V m c main_arg3) (V m c main_arg4) (V m c main_arg5)) := by
  show (cfg0.win 5).cut (grid0.coords t) ((dats m 0 c).after 5 t) = _
  rw [after_out]
  unfold outBlk
  rw [View.canon_unit_zero hz3]
  simp only [View.ld_unit_zero (S := S1x8192x10) hz3, View.ld_unit_zero (S := S10x64) hz2, View.ld_unit_zero (S := S64) hz1,
    View.ld_unit_zero (S := S64x64) hz2]
  funext y
  obtain ⟨u, p, q, rfl⟩ : ∃ (u : Fin 1) (p : Fin 8192) (q : Fin 64), y = ix3 u p q := ⟨y 0, y 1, y 2, eq_ix3 y⟩
  refine (pay_apply (iblk m c 0 t) (iblk m c 1 t) (iblk m c 2 t) (iblk m c 3 t) (iblk m c 4 t) u p q).trans ?_
  rw [blk_W1, blk_b1, blk_W2, blk_b2]
  exact block_eq (V m c main_v13) (V m c main_arg2) (V m c main_arg3) (V m c main_arg4) (V m c main_arg5) t u p q

end Cert.KernelIdeal.KValue

end
-- ==== Proof.KIHostValue.lean ====
/-
  What the region's feature window finds: the host prefix's result.

  The sixteen host operations before the region build, from the point positions, the distances and the neighbour
  indices, the ten features of every (point, neighbour) pair — the point's own position, the neighbour's position
  (a gather at the index, an index below zero wrapped by 4096 first), their difference and the distance, concatenated
  along the last axis —, fold the (point, neighbour) axes row-major into one row axis, and change the float format.
  The feature array is carried as ONE function `feats` of the three argument arrays and is never opened: the reference
  builds the same array by the same operations.
-/
import proofs.«401142_j76656576299160_3_alg».proof.Proof.KIHost
import Idealize.ShloMosaic.Lib.StableHlo.Run

set_option maxRecDepth 16384

noncomputable section

namespace Cert.KernelIdeal.KValue

open Cert.KernelIdeal Cert.KernelIdeal.Gen Cert.KernelIdeal.Frame
open Idealize.ShloMosaic Idealize.ShloMosaic.TcCoe Idealize.SL.Sem Idealize.ShloMosaic.StableHlo

variable {F : FTy → Type} [FloatOps F]

/-- The ten features of every (batch, point, neighbour) triple, as the host operations compute them from the positions
    `x0`, the distances `x1` and the neighbour indices `x6`. -/
def feats (x0 : (⟨S16x4096x3, .f32⟩ : BufTy).Contents (Elt F)) (x1 : (⟨S16x4096x16, .f32⟩ : BufTy).Contents (Elt F))
    (x6 : (⟨S16x4096x16, .i32⟩ : BufTy).Contents (Elt F)) : (⟨S16x4096x16x10, .f32⟩ : BufTy).Contents (Elt F) :=
  concatenate S16x4096x16x10 3 [⟨S16x4096x16x3, (broadcastInDim S16x4096x16x3 ![0, 1, 2, 3] bcast_S16x4096x1x3_S16x4096x16x3_0_1_2_3 (broadcastInDim S16x4096x1x3 ![0, 1, 3] bcast_S16x4096x3_S16x4096x1x3_0_1_3 x0))⟩, ⟨S16x4096x16x3, (Host.gather gather_S16x4096x3_S16x4096x16x1_S16x4096x16x3_3_1_0_0_1_3_113 x0 (broadcastInDim S16x4096x16x1 ![0, 1, 2] bcast_S16x4096x16_S16x4096x16x1_0_1_2 (select (cmpi .slt x6 (broadcastInDim S16x4096x16 ![] bcast_S_S16x4096x16 (constantI S_ 32 0#32))) (addi x6 (broadcastInDim S16x4096x16 ![] bcast_S_S16x4096x16 (constantI S_ 32 4096#32))) x6)))⟩, ⟨S16x4096x16x3, (subf (broadcastInDim S16x4096x16x3 ![0, 1, 2, 3] bcast_S16x4096x1x3_S16x4096x16x3_0_1_2_3 (broadcastInDim S16x4096x1x3 ![0, 1, 3] bcast_S16x4096x3_S16x4096x1x3_0_1_3 x0)) (Host.gather gather_S16x4096x3_S16x4096x16x1_S16x4096x16x3_3_1_0_0_1_3_113 x0 (broadcastInDim S16x4096x16x1 ![0, 1, 2] bcast_S16x4096x16_S16x4096x16x1_0_1_2 (select (cmpi .slt x6 (broadcastInDim S16x4096x16 ![] bcast_S_S16x4096x16 (constantI S_ 32 0#32))) (addi x6 (broadcastInDim S16x4096x16 ![] bcast_S_S16x4096x16 (constantI S_ 32 4096#32))) x6))))⟩, ⟨S16x4096x16x1, (broadcastInDim S16x4096x16x1 ![0, 1, 2] bcast_S16x4096x16_S16x4096x16x1_0_1_2 x1)⟩] concatenates_S16x4096x16x3_S16x4096x16x3_S16x4096x16x3_S16x4096x16x1_S16x4096x16x10_d3

variable (m : (ℓ : Loc nD τ sig) → Buf (Elt F) ℓ)

set_option maxHeartbeats 1000000 in
/-- The feature window's array when the region is entered: the features, folded to [16, 65536, 10], in the narrower float
    format. -/
theorem V_feat (c : Dev nD) :
    V m c main_v13 = (truncf .bf16 (shapeCast S16x65536x10 (feats (F := F) (m ((c : Thread nD τ).loc main_arg0))
        (m ((c : Thread nD τ).loc main_arg1)) (m ((c : Thread nD τ).loc main_arg6))) shapeCasts_S16x4096x16x10_S16x65536x10) bitsLt_bf16_f32
      : (⟨S16x65536x10, .bf16⟩ : BufTy).Contents (Elt F)) := by
  show StableHlo.after hostOps0 (fun b => m (c, b)) (Proc.devRef .tc main_v13) = _
  unfold feats
  after_results
  rfl

end Cert.KernelIdeal.KValue

end
-- ==== Proof.KIRun.lean ====
/-
  The kernel program's run, read: its result as one function of the argument arrays.

  The output window's blocks tile the region's result array (point (b, r) covers rows r·8192 … r·8192 + 8191 of batch b),
  so the array ends as `rows` of what the region found; the one reshape after the region unfolds the row axis. Result
  element (b, n, k, d) is therefore the perceptron's output column d on the ten features of point n's k-th neighbour in
  batch b.
-/
import proofs.«401142_j76656576299160_3_alg».proof.Proof.KIValue
import proofs.«401142_j76656576299160_3_alg».proof.Proof.KIHostValue

set_option maxRecDepth 16384

noncomputable section

namespace Cert.KernelIdeal.KValue

open Cert.KernelIdeal Cert.KernelIdeal.Gen Cert.KernelIdeal.Frame Cert.KernelIdeal.Payload
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- An index of the result array is in point `t`'s block iff each coordinate is in the block's range on its axis. -/
theorem mem_blk (t : Fin cfg0.N) (i : S16x65536x64.Idx) :
    i ∈ ((cfg0.win 5).blk t).view.set ↔ ∀ a : Fin 3, win0_5.index t a * S1x8192x64.size a ≤ (i a).val
      ∧ (i a).val < win0_5.index t a * S1x8192x64.size a + S1x8192x64.size a := by
  show i ∈ ((View.whole main_v14).slice (win0_5.rect t)).set ↔ _
  rw [View.set_slice_whole, Rect.mem_set_unit]
  exact Iff.rfl

/-- The blocks tile the array: index (b, row, d) is in the block of the point at batch b, row block row / 8192. -/
theorem cover (i : S16x65536x64.Idx) : ∃ t : Fin cfg0.N, (cfg0.win 5).flush t = true ∧ i ∈ ((cfg0.win 5).blk t).view.set := by
  have hi0 : (i 0).val < 16 := (i 0).isLt
  have hi1 : (i 1).val < 65536 := (i 1).isLt
  have hi2 : (i 2).val < 64 := (i 2).isLt
  obtain ⟨t, ht⟩ := idx_onto ⟨(i 0).val, hi0⟩ ⟨(i 1).val / 8192, by omega⟩
  have q0 : win0_5.index t (0 : Fin 3) = (i 0).val := congrFun ht 0
  have q1 : win0_5.index t (1 : Fin 3) = (i 1).val / 8192 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8192 ≤ (i 1).val ∧ (i 1).val < win0_5.index t (1 : Fin 3) * 8192 + 8192; omega
  | ⟨2, _⟩ => show win0_5.index t (2 : Fin 3) * 64 ≤ (i 2).val ∧ (i 2).val < win0_5.index t (2 : Fin 3) * 64 + 64; omega

/-- The region's result array after the last point. -/
theorem final (c : Dev nD) : (dats m 0 c).arrAt 5 cfg0.N
    = rows (V m c main_v13) (V m c main_arg2) (V m c main_arg3) (V m c main_arg4) (V m c main_arg5) :=
  (dats m 0 c).arrAt_eq_of_cover 5 _ (fun t _ => flushed_eq m c t) cover

/-- The program's result: the reshape after the region applied to the region's result array. -/
theorem tail_out (c : Dev nD) :
    Pipeline.afterTail₀ cfgs (dats m) 0 (V0 m) [hostOps1] c main_v15
      = shapeCast S16x4096x16x64 ((dats m 0 c).arrAt 5 cfg0.N) shapeCasts_S16x65536x64_S16x4096x16x64 := by
  unfold Pipeline.afterTail₀
  show StableHlo.after hostOps1 _ (Proc.devRef .tc main_v15) = _
  after_results
  rw [show Pipeline.withArrays (cfgs 0).spec c (V0 m c) (fun w => (dats m 0 c).arrAt w (cfgs 0).N) (Proc.tc.devRef main_v14)
      = (dats m 0 c).arrAt 5 cfg0.N from Pipeline.withArrays_arr spec0 launch0.win.arr_inj c _ _ 5]
  rfl

/-- The folded features at (b, n·16 + k, j) are the features at (b, n, k, j): the fold is row-major and the change of
    float format is the identity on the extended reals. -/
theorem feat_fold (x0 : (⟨S16x4096x3, .f32⟩ : BufTy).Contents (Elt Ideal)) (x1 : (⟨S16x4096x16, .f32⟩ : BufTy).Contents (Elt Ideal))
    (x6 : (⟨S16x4096x16, .i32⟩ : BufTy).Contents (Elt Ideal)) (b : Fin 16) (n : Fin 4096) (k : Fin 16) (j : Fin 10)
    (r : Fin 65536) (hr : r.val = n.val * 16 + k.val) :
    truncf (F := Ideal) .bf16 (shapeCast S16x65536x10 (feats (F := Ideal) x0 x1 x6) shapeCasts_S16x4096x16x10_S16x65536x10) bitsLt_bf16_f32
      (ix3 b r j) = feats (F := Ideal) x0 x1 x6 (ix4 b n k j) := by
  generalize feats (F := Ideal) x0 x1 x6 = Y
  rw [truncf_apply]
  refine shapeCast_apply Y _ _ _ ?_
  rw [Shape.rowMajor_val_four, Shape.rowMajor_val_three]
  show ((b.val * 4096 + n.val) * 16 + k.val) * 10 + j.val = (b.val * 65536 + r.val) * 10 + j.val
  omega

/-- The program's result at (b, n, k, d): the perceptron's output column `d` on the features of (b, n, k). -/
theorem result_apply (c : Dev nD) (b : Fin 16) (n : Fin 4096) (k : Fin 16) (d : Fin 64) :
    Pipeline.afterTail₀ cfgs (dats m) 0 (V0 m) [hostOps1] c main_v15 (ix4 b n k d)
      = Cert.Mlp.mlpElt (fun j => feats (F := Ideal) (m ((c : Thread nD τ).loc main_arg0)) (m ((c : Thread nD τ).loc main_arg1))
          (m ((c : Thread nD τ).loc main_arg6)) (ix4 b n k j))
        (m ((c : Thread nD τ).loc main_arg2)) (m ((c : Thread nD τ).loc main_arg3)) (m ((c : Thread nD τ).loc main_arg4))
        (m ((c : Thread nD τ).loc main_arg5)) d := by
  have hn : n.val < 4096 := n.isLt
  have hk : k.val < 16 := k.isLt
  rw [tail_out, final, V_feat, V_main_arg2, V_main_arg3, V_main_arg4, V_main_arg5]
  refine (shapeCast_apply _ _ (ix4 b n k d) (ix3 b (⟨n.val * 16 + k.val, by omega⟩ : Fin 65536) d) ?_).trans ?_
  · rw [Shape.rowMajor_val_four, Shape.rowMajor_val_three]
    show (b.val * 65536 + (n.val * 16 + k.val)) * 64 + d.val = ((b.val * 4096 + n.val) * 16 + k.val) * 64 + d.val
    omega
  · exact congrArg (fun x => Cert.Mlp.mlpElt x _ _ _ _ d) (funext fun j => feat_fold _ _ _ b n k j _ rfl)

end Cert.KernelIdeal.KValue

end
-- ==== Proof.RefValue.lean ====
/-
  The reference's result, read at one element, is the perceptron of `MlpSpec` on the feature array the reference builds.

  After the shared feature construction the reference contracts the features' last axis with the first weight matrix,
  adds the first bias row, rectifies against zero, contracts with the second weight matrix and adds the second bias
  row. Read at (b, n, k, d), one operation at a time, that is the perceptron's output column d on feature row (b, n, k).
  The feature array itself (the stage `val_main_v11`) is never opened.
-/
import proofs.«401142_j76656576299160_3_alg».proof.Proof.Gen.ReferenceIdeal.Run
import proofs.«401142_j76656576299160_3_alg».proof.Proof.Gen.ReferenceIdeal.Read
import proofs.«401142_j76656576299160_3_alg».proof.Proof.MlpSpec

noncomputable section

namespace Cert.ReferenceIdeal.RefValue

open Cert.ReferenceIdeal Cert.ReferenceIdeal.Gen Cert.ReferenceIdeal.Read Idealize.ShloMosaic Idealize.ShloMosaic.ValueIdx

/-! The composed index maps of the reference's stages, at an element (b, n, k, d) and contraction positions h, c. -/

theorem ix_W2 (b : Fin 16) (n : Fin 4096) (k : Fin 16) (d : Fin 64) (h : Fin 64) :
    ridx_main_v17 (ix4 b n k d) h = ix2 h d :=
  funext fun a => Fin.ext (by match a with | ⟨0, _⟩ => rfl | ⟨1, _⟩ => rfl)
theorem ix_hid (b : Fin 16) (n : Fin 4096) (k : Fin 16) (d : Fin 64) (h : Fin 64) :
    lidx_main_v17 (ix4 b n k d) h = ix4 b n k h :=
  funext fun a => Fin.ext (by match a with | ⟨0, _⟩ => rfl | ⟨1, _⟩ => rfl | ⟨2, _⟩ => rfl | ⟨3, _⟩ => rfl)
theorem ix_feat (b : Fin 16) (n : Fin 4096) (k : Fin 16) (h : Fin 64) (c : Fin 10) :
    lidx_main_v12 (ix4 b n k h) c = ix4 b n k c :=
  funext fun a => Fin.ext (by match a with | ⟨0, _⟩ => rfl | ⟨1, _⟩ => rfl | ⟨2, _⟩ => rfl | ⟨3, _⟩ => rfl)
theorem ix_W1 (b : Fin 16) (n : Fin 4096) (k : Fin 16) (h : Fin 64) (c : Fin 10) :
    ridx_main_v12 (ix4 b n k h) c = ix2 c h :=
  funext fun a => Fin.ext (by match a with | ⟨0, _⟩ => rfl | ⟨1, _⟩ => rfl)
theorem ix_b1 (b : Fin 16) (n : Fin 4096) (k : Fin 16) (h : Fin 64) :
    idx_main_v13 (idx_main_v14 (ix4 b n k h)) = ix1 h :=
  funext fun a => Fin.ext (by match a with | ⟨0, _⟩ => rfl)
theorem ix_b2 (b : Fin 16) (n : Fin 4096) (k : Fin 16) (d : Fin 64) :
    idx_main_v18 (idx_main_v19 (ix4 b n k d)) = ix1 d :=
  funext fun a => Fin.ext (by match a with | ⟨0, _⟩ => rfl)

/-- The reference's result at (b, n, k, d). -/
theorem ref_apply (x0 : (⟨S16x4096x3, .f32⟩ : BufTy).Contents (Elt Ideal)) (x1 : (⟨S16x4096x16, .f32⟩ : BufTy).Contents (Elt Ideal))
    (x2 : (⟨S10x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S16x4096x16, .i32⟩ : BufTy).Contents (Elt Ideal)) (b : Fin 16) (n : Fin 4096) (k : Fin 16) (d : Fin 64) :
    val_main_v20 (F := Ideal) x0 x1 x2 x3 x4 x5 x6 (ix4 b n k d)
      = Cert.Mlp.mlpElt (fun c => val_main_v11 (F := Ideal) x0 x1 x6 (ix4 b n k c)) x2 x3 x4 x5 d := by
  rw [val_main_v20_apply, val_main_v17_apply, val_main_v19_apply, val_main_v18_apply, ix_b2]
  unfold Cert.Mlp.mlpElt Cert.Mlp.hidden
  refine congrArg (· + x5 (ix1 d)) (Finset.sum_congr rfl fun h _ => ?_)
  rw [ix_W2, ix_hid, val_main_v16_apply, val_main_v15_apply, val_main_v12_apply, val_main_v14_apply, val_main_v13_apply, ix_b1,
    val_main_call0_v0_apply, val_main_call0_cst_apply]
  refine congrArg (fun s => max (s + x3 (ix1 h)) (Ideal.ofBits .f32 0x00000000#32) * x4 (ix2 h d)) (Finset.sum_congr rfl fun c _ => ?_)
  rw [ix_feat, ix_W1]

end Cert.ReferenceIdeal.RefValue

end
-- ==== Proof.lean ====
/-
  The certificate of a neighbour-feature perceptron kernel against its jnp reference.

  Both programs build, for every (batch b, point n, neighbour k), ten features — the point's position, the neighbour's
  position (gathered at the index), their difference and the distance — by the same sixteen host operations, and then
  apply a two-layer perceptron: features · W1 + b1, rectified, · W2 + b2. The kernel folds (n, k) into one row axis and
  runs the perceptron in a pallas_call over a 16 × 8 grid of 8192-row blocks, rounding to a narrower float format on
  the way into each matrix product; the reference contracts the four-dimensional feature array directly. On the extended
  reals the changes of format are the identity and a matrix product into a zero accumulator is the plain sum, so result
  element (b, n, k, d) is on both sides

      (∑ h, max ((∑ c, feat(b,n,k,c) · W1 c h) + b1 h) 0 · W2 h d) + b2 d        (Proof/MlpSpec.lean),

  read off each program one operation at a time; no algebraic law is needed, so the finiteness of the inputs is never
  used. The feature array is carried as one function of the three arrays it depends on and never opened: the two
  programs' spellings of it are the same operations in the same order.

  The frames: the reference is a straight line of host operations (its run is read back operation by operation); the
  kernel's program is host lines, one region, one host reshape, and its frame is proved once for any float family
  (Proof/KIHost.lean, Proof/KIBody.lean) from the body's run (five whole-buffer loads, an unused load of the output
  buffer, one covering store) and the library's launch theorem. The idealization rewrote nothing, so `preserves` is
  trivial.
-/
import proofs.«401142_j76656576299160_3_alg».proof.Defs
import proofs.«401142_j76656576299160_3_alg».proof.Proof.Gen.Pre_finite_inputs
import proofs.«401142_j76656576299160_3_alg».proof.Proof.KBody
import proofs.«401142_j76656576299160_3_alg».proof.Proof.KIRun
import proofs.«401142_j76656576299160_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The two programs' feature arrays are one function of the positions, the distances and the neighbour indices: the
    same operations in the same order (for any float family). -/
theorem feats_eq {F : FTy → Type} [FloatOps F] (x0 : (⟨Cert.KernelIdeal.S16x4096x3, .f32⟩ : BufTy).Contents (Elt F))
    (x1 : (⟨Cert.KernelIdeal.S16x4096x16, .f32⟩ : BufTy).Contents (Elt F)) (x6 : (⟨Cert.KernelIdeal.S16x4096x16, .i32⟩ : BufTy).Contents (Elt F)) :
    Cert.ReferenceIdeal.Read.val_main_v11 (F := F) x0 x1 x6 = Cert.KernelIdeal.KValue.feats (F := F) x0 x1 x6 := rfl

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the perceptron of the shared features, element by element. -/
theorem algebraic : Cert.algebraic_KernelIdeal_ReferenceIdeal := by
  intro m ρ m' ρ' _ hagree
  refine ⟨fun c => Pipeline.afterTail₀ Cert.KernelIdeal.cfgs (Cert.KernelIdeal.Frame.dats m) 0 (Cert.KernelIdeal.Frame.V0 m)
      [Cert.KernelIdeal.Gen.hostOps1] c Cert.KernelIdeal.main_v15, ?_, ?_⟩
  · exact (θ_run Cert.KernelIdeal.defs _ _).mono (fun r h c =>
      ⟨(h c).2 Cert.KernelIdeal.main_v15 (Pipeline.mem_restRefs_of Cert.KernelIdeal.main_v15 (by decide) (by decide)),
        Cert.KernelIdeal.Frame.args_kept m r h c⟩) (Cert.KernelIdeal.Frame.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq, (hagree c).1, (hagree c).2.1, (hagree c).2.2.1, (hagree c).2.2.2.1,
      (hagree c).2.2.2.2.1, (hagree c).2.2.2.2.2.1, (hagree c).2.2.2.2.2.2]
    funext i
    obtain ⟨b, n, k, d, rfl⟩ : ∃ (b : Fin 16) (n : Fin 4096) (k : Fin 16) (d : Fin 64), i = ix4 b n k d := ⟨i 0, i 1, i 2, i 3, eq_ix4 i⟩
    rw [Cert.ReferenceIdeal.RefValue.ref_apply, feats_eq]
    exact (Cert.KernelIdeal.KValue.result_apply m c b n k d).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
